-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x256 : Shape := ⟨2, ![1024, 256]⟩
abbrev S512x256 : Shape := ⟨2, ![512, 256]⟩
abbrev S1x512 : Shape := ⟨2, ![1, 512]⟩
abbrev S1024x512 : Shape := ⟨2, ![1024, 512]⟩
abbrev S256x512 : Shape := ⟨2, ![256, 512]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

def k0_cond3 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .f32 = 32 ∨ (Rect.block (s := S8192x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x4096.size a
  hwx0_1 : ∀ i : grid0.Coords, EltTy.bits .f32 = 32 ∨ (Rect.block (s := S4096x4096) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S4096x256 : Shape := ⟨2, ![4096, 256]⟩
abbrev S8192x256 : Shape := ⟨2, ![8192, 256]⟩
abbrev S_ : Shape := ⟨0, ![]⟩
abbrev S8192x3840 : Shape := ⟨2, ![8192, 3840]⟩
abbrev S4096x3840 : Shape := ⟨2, ![4096, 3840]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x256, .f32⟩
  | .hbm, ⟨5, _⟩ => ⟨S8192x256, .f32⟩
  | .hbm, ⟨6, _⟩ => ⟨S8192x4096, .f32⟩
  | .hbm, ⟨7, _⟩ => ⟨S8192x256, .f32⟩
  | .hbm, ⟨8, _⟩ => ⟨S4096x256, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .i1⟩
  | .hbm, ⟨25, _⟩ => ⟨S8192x3840, .f32⟩
  | .hbm, ⟨26, _⟩ => ⟨S4096x3840, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S4096x4096_S4096x256_0_0 : S4096x4096.Slices ![0, 0] S4096x256
  slices_S8192x4096_S8192x256_0_0 : S8192x4096.Slices ![0, 0] S8192x256
  bcast_S_S8192x4096 : S_.BroadcastsInDim S8192x4096 (![] : Fin 0 → Fin S8192x4096.rank)
  slices_S8192x4096_S8192x3840_0_256 : S8192x4096.Slices ![0, 256] S8192x3840
  slices_S4096x4096_S4096x3840_0_256 : S4096x4096.Slices ![0, 256] S4096x3840
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x256_S4096x256_S8192x4096_1_1_0_0_n_n_wf : DotDims.WF S8192x256 S4096x256 S8192x4096 [1] [1] [0] [0] [] []
  dot_S8192x3840_S4096x3840_S8192x4096_1_1_0_0_n_n_wf : DotDims.WF S8192x3840 S4096x3840 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf
def dot_S8192x3840_S4096x3840_S8192x4096_1_1_0_0_n_n : DotDims S8192x3840 S4096x3840 S8192x4096 where
  lhsContracting := [1]
  rhsContracting := [1]
  lhsNonContracting := [0]
  rhsNonContracting := [0]
  lhsBatch := []
  rhsBatch := []
  wf := dot_S8192x3840_S4096x3840_S8192x4096_1_1_0_0_n_n_wf

class Facts : Prop extends Facts₀ where

variable [Facts]
-- ==== Proof.Pieces.lean ====
/-
  What each control case of the kernel body leaves in its buffers, as a value.

  The body has three cases, by the position k of the grid point along the contracted axis.
  At k = 0 it clears the accumulator, adds the first block's product to it, and stores the two
  products of the first 256 columns (of the entries, and of their squares).  At 0 < k < 15 it adds block k's
  product to the accumulator and leaves the other two buffers alone.  At k = 15 it does the same and then
  forms the output block from the three buffers and the bias row.
  Each lemma reads one buffer's covering stores back as the arithmetic of the loaded blocks.
-/
import proofs.«104158_j30949534335490_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- k = 0, the accumulator: cleared, then the first block's product added to the cleared contents. -/
theorem acc_first (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : cond0_1 i) (hc2 : ¬cond0_2 i)
    (x0 : Vec F S1024x256 .f32) (x1 : Vec F S512x256 .f32) (x2 : Vec F S1x512 .f32) :
    sout0_A_0 c i arg3 harg3 arg4 harg4 arg5 harg5 arg6 harg6 arg7 harg7 arg8 harg8 arg9 harg9 hc0 hc1 hc2 x0 x1 x2 = k0_pay3 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 hc2 x0 x1 x2)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz]

/-- k = 0, the product of the first 256 columns. -/
theorem y1_first (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : cond0_1 i) (hc2 : ¬cond0_2 i)
    (x0 : Vec F S1024x256 .f32) (x1 : Vec F S512x256 .f32) (x2 : Vec F S1x512 .f32) :
    sout0_A_1 c i arg3 harg3 arg4 harg4 arg5 harg5 arg6 harg6 arg7 harg7 arg8 harg8 arg9 harg9 hc0 hc1 hc2 x0 x1 x2 = k0_pay4 x0 x1 := by
  unfold sout0_A_1
  rw [View.read_writes_eq_canon _ _ _ (scover0_A_1 c i arg3 harg3 arg4 harg4 arg5 harg5 arg6 harg6 arg7 harg7 arg8 harg8 arg9 harg9 hc0 hc1 hc2 x0 x1 x2)]
  unfold kernelRun0_A
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz]

/-- k = 0, the product of the squares over the first 256 columns. -/
theorem s2_first (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : cond0_1 i) (hc2 : ¬cond0_2 i)
    (x0 : Vec F S1024x256 .f32) (x1 : Vec F S512x256 .f32) (x2 : Vec F S1x512 .f32) :
    sout0_A_2 c i arg3 harg3 arg4 harg4 arg5 harg5 arg6 harg6 arg7 harg7 arg8 harg8 arg9 harg9 hc0 hc1 hc2 x0 x1 x2 = k0_pay5 x0 x1 := by
  unfold sout0_A_2
  rw [View.read_writes_eq_canon _ _ _ (scover0_A_2 c i arg3 harg3 arg4 harg4 arg5 harg5 arg6 harg6 arg7 harg7 arg8 harg8 arg9 harg9 hc0 hc1 hc2 x0 x1 x2)]
  unfold kernelRun0_A
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz]

/-- 0 < k < 15, the accumulator: block k's product added to what the point before left. -/
theorem acc_middle (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (hc2 : ¬cond0_2 i)
    (x0 : Vec F S1024x256 .f32) (x1 : Vec F S512x256 .f32) (x2 : Vec F S1x512 .f32) (xs0 : Vec F S1024x512 .f32) (xs1 : Vec F S1024x512 .f32) (xs2 : Vec F S1024x512 .f32) :
    sout0_B_0 c i arg3 harg3 arg4 harg4 arg5 harg5 arg6 harg6 arg7 harg7 arg8 harg8 arg9 harg9 hc0 hc1 hc2 x0 x1 x2 xs0 xs1 xs2 = k0_pay3 x0 x1 xs0 := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 xs0 xs1 xs2)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz]

/-- k = 15, the accumulator: the last block's product added to what the point before left. -/
theorem acc_last (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (hc2 : cond0_2 i)
    (x0 : Vec F S1024x256 .f32) (x1 : Vec F S512x256 .f32) (x2 : Vec F S1x512 .f32) (xs0 : Vec F S1024x512 .f32) (xs1 : Vec F S1024x512 .f32) (xs2 : Vec F S1024x512 .f32) :
    sout0_C_0 c i arg3 harg3 arg4 harg4 arg5 harg5 arg6 harg6 arg7 harg7 arg8 harg8 arg9 harg9 hc0 hc1 hc2 x0 x1 x2 xs0 xs1 xs2 = k0_pay3 x0 x1 xs0 := by
  unfold sout0_C_0
  rw [View.read_writes_eq_canon _ _ _ (scover0_C_0 c i arg3 harg3 arg4 harg4 arg5 harg5 arg6 harg6 arg7 harg7 arg8 harg8 arg9 harg9 hc0 hc1 hc2 x0 x1 x2 xs0 xs1 xs2)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz]

/-- k = 15, the output block: formed from the two first-block products as the point before left them,
    the accumulator as this point has just updated it, and the bias row. -/
theorem out_last (c : Dev nD) (i : grid0.Coords) (arg3 : Memref sig .tc .vmem S1024x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (hc2 : cond0_2 i)
    (x0 : Vec F S1024x256 .f32) (x1 : Vec F S512x256 .f32) (x2 : Vec F S1x512 .f32) (xs0 : Vec F S1024x512 .f32) (xs1 : Vec F S1024x512 .f32) (xs2 : Vec F S1024x512 .f32) :
    out0_C_3 c i arg3 harg3 arg4 harg4 arg5 harg5 arg6 harg6 arg7 harg7 arg8 harg8 arg9 harg9 hc0 hc1 hc2 x0 x1 x2 xs0 xs1 xs2 = k0_pay6 xs2 xs1 (k0_pay3 x0 x1 xs0) x2 := by
  unfold out0_C_3
  rw [View.read_writes_eq_canon _ _ _ (cover0_C_3 c i arg3 harg3 arg4 harg4 arg5 harg5 arg6 harg6 arg7 harg7 arg8 harg8 arg9 harg9 hc0 hc1 hc2 x0 x1 x2 xs0 xs1 xs2)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x256) hz, View.ld_unit_zero (S := S512x256) hz, View.ld_unit_zero (S := S1x512) hz, View.ld_unit_zero (S := S1024x512) hz, View.readCov_unit_zero (S := S1024x512) _ hz]

end Cert.KernelIdeal.Pieces

end
-- ==== Proof.Spec.lean ====
/-
  The function both programs compute, entry by entry, on the extended reals.

  Write X for the activations as an 8192 × 4096 matrix, W for the 4096 × 4096 weights and β for the bias.
  For a row b of X and a row n of W put g(j) = X[b, j] · W[n, j] and h(j) = (X[b, j] · X[b, j]) · (W[n, j] · W[n, j]).
  The result at (b, n) is

      (if |y₁| / max(√(s₂ / 256 + ε), ε) < 3 then 0 else a) + β[n],

  where y₁ = Σ_{j < 256} g(j) and s₂ = Σ_{j < 256} h(j) are taken over the first 256 columns and
  a = Σ_{j < 4096} g(j) over all of them.  One program forms a as sixteen consecutive blocks of 256 columns
  added one after the other to a zero start, the other as y₁ plus the sum over the remaining 3840 columns.
  Addition on the extended reals is a commutative monoid, so the two groupings agree for every input,
  finite or not: no cancellation and no distributivity is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![8192, 4096]⟩
abbrev SW : Shape := ⟨2, ![4096, 4096]⟩
abbrev SB : Shape := ⟨1, ![4096]⟩

/-! ## Sums over consecutive blocks of 256 columns -/

/-- The sum of `g` over block `kb`: the columns `256·kb, …, 256·kb + 255`. -/
def blockSum (g : ℕ → EReal) (kb : ℕ) : EReal := ∑ k ∈ Finset.range 256, g (256 * kb + k)

/-- The first `K` blocks added up, one block after the other. -/
def partialAcc (g : ℕ → EReal) (K : ℕ) : EReal := ∑ kb ∈ Finset.range K, blockSum g kb

theorem partialAcc_zero (g : ℕ → EReal) : partialAcc g 0 = 0 := Finset.sum_range_zero _

theorem partialAcc_succ (g : ℕ → EReal) (K : ℕ) : partialAcc g (K + 1) = partialAcc g K + blockSum g K :=
  Finset.sum_range_succ _ _

/-- Starting from zero and adding block 0 leaves block 0. -/
theorem partialAcc_one (g : ℕ → EReal) : partialAcc g 1 = 0 + blockSum g 0 := by
  rw [partialAcc_succ, partialAcc_zero]

/-- `K` blocks of 256 columns are the first `256·K` columns. -/
theorem partialAcc_eq_range (g : ℕ → EReal) (K : ℕ) : partialAcc g K = ∑ j ∈ Finset.range (256 * K), g j := by
  induction K with
  | zero => simp [partialAcc]
  | succ K ih =>
    rw [partialAcc_succ, ih, show 256 * (K + 1) = 256 * K + 256 by ring, Finset.sum_range_add]
    rfl

/-- The regrouping: sixteen blocks of 256 columns are the first block plus the remaining 3840 columns. -/
theorem partialAcc_sixteen (g : ℕ → EReal) :
    partialAcc g 16 = blockSum g 0 + ∑ k ∈ Finset.range 3840, g (256 + k) := by
  rw [partialAcc_eq_range, show 256 * 16 = 256 + 3840 by norm_num, Finset.sum_range_add]
  simp [blockSum]

/-- A sum over `Fin 256` whose `k`-th term is `g` at column `256·kb + k` is block `kb`'s sum. -/
theorem sum_fin_eq_blockSum (g : ℕ → EReal) (kb : ℕ) (f : Fin 256 → EReal)
    (h : ∀ k : Fin 256, f k = g (256 * kb + k.val)) : ∑ k : Fin 256, f k = blockSum g kb := by
  unfold blockSum
  rw [Finset.sum_range]
  exact Finset.sum_congr rfl fun k _ => h k

/-- A sum over `Fin 3840` whose `k`-th term is `g` at column `256 + k` is the sum over the last 3840 columns. -/
theorem sum_fin_eq_tail (g : ℕ → EReal) (f : Fin 3840 → EReal)
    (h : ∀ k : Fin 3840, f k = g (256 + k.val)) : ∑ k : Fin 3840, f k = ∑ k ∈ Finset.range 3840, g (256 + k) := by
  rw [Finset.sum_range]
  exact Finset.sum_congr rfl fun k _ => h k

/-! ## The terms -/

/-- `X[b, j] · W[n, j]` as a function of the column number (zero past the last column). -/
def term (X : SX.Idx → EReal) (W : SW.Idx → EReal) (b : Fin 8192) (n : Fin 4096) (j : ℕ) : EReal :=
  if h : j < 4096 then X (ix2 b ⟨j, h⟩) * W (ix2 n ⟨j, h⟩) else 0

/-- `(X[b, j] · X[b, j]) · (W[n, j] · W[n, j])` as a function of the column number. -/
def sqTerm (X : SX.Idx → EReal) (W : SW.Idx → EReal) (b : Fin 8192) (n : Fin 4096) (j : ℕ) : EReal :=
  if h : j < 4096 then (X (ix2 b ⟨j, h⟩) * X (ix2 b ⟨j, h⟩)) * (W (ix2 n ⟨j, h⟩) * W (ix2 n ⟨j, h⟩)) else 0

theorem term_of_lt (X : SX.Idx → EReal) (W : SW.Idx → EReal) (b : Fin 8192) (n : Fin 4096) (j : ℕ) (h : j < 4096) :
    term X W b n j = X (ix2 b ⟨j, h⟩) * W (ix2 n ⟨j, h⟩) := dif_pos h

theorem sqTerm_of_lt (X : SX.Idx → EReal) (W : SW.Idx → EReal) (b : Fin 8192) (n : Fin 4096) (j : ℕ) (h : j < 4096) :
    sqTerm X W b n j = (X (ix2 b ⟨j, h⟩) * X (ix2 b ⟨j, h⟩)) * (W (ix2 n ⟨j, h⟩) * W (ix2 n ⟨j, h⟩)) := dif_pos h

/-! ## One entry of the result -/

/-- The entry from its three sums and the bias: the test on the first 256 columns decides between zero
    and the full sum, then the bias is added. The float words are 256, ε = f32(1e-6), 3 and 0. -/
def outElt (s2 y1 acc bias : EReal) : EReal :=
  Scalar.select
    (FloatOps.cmpf (F := Ideal) (φ := .f32) .olt
      (Ideal.div (max y1 (-y1))
        (max (Ideal.sqrt (Ideal.div s2 (Ideal.ofBits .f32 0x43800000#32) + Ideal.ofBits .f32 0x358637BD#32))
          (Ideal.ofBits .f32 0x358637BD#32)))
      (Ideal.ofBits .f32 0x40400000#32))
    (Ideal.ofBits .f32 0x00000000#32) acc
  + bias

/-- The whole result as an 8192 × 4096 matrix. -/
def out2d (X : SX.Idx → EReal) (W : SW.Idx → EReal) (β : SB.Idx → EReal) : SX.Idx → EReal := fun i =>
  outElt (blockSum (sqTerm X W (i 0) (i 1)) 0) (blockSum (term X W (i 0) (i 1)) 0)
    (partialAcc (term X W (i 0) (i 1)) 16) (β (ix1 (i 1)))

end Cert.Spec

end
-- ==== Proof.Blocks.lean ====
/-
  The windows' blocks as entries of the arrays, and one block's sums as the specification's block sums.

  Grid point t stands for the block row t / 128 of the activations, the block row (t / 16) % 8 of the weights and
  the block k = t % 16 of 256 columns along the contracted axis.  Entry (p, q) of the activations' block is
  X[1024·(t/128) + p, 256·k + q]; entry (r, q) of the weights' block is W[512·((t/16)%8) + r, 256·k + q]; entry (0, r)
  of the bias row's block is the bias at column 512·((t/16)%8) + r.
-/
import proofs.«104158_j30949534335490_1_alg».proof.Proof.Gen.KernelIdeal.Frame
import proofs.«104158_j30949534335490_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## Names of literal type for the blocks and the arrays -/

abbrev xblk (c : Dev nD) (t : Fin cfg0.N) : Vec F S1024x256 .f32 := iblk m c 0 t
abbrev wblk (c : Dev nD) (t : Fin cfg0.N) : Vec F S512x256 .f32 := iblk m c 1 t
abbrev bblk (c : Dev nD) (t : Fin cfg0.N) : Vec F S1x512 .f32 := iblk m c 2 t
abbrev xarr (c : Dev nD) : Vec F S8192x4096 .f32 := V m c main_v0
abbrev warr (c : Dev nD) : Vec F S4096x4096 .f32 := V m c main_arg1
abbrev barr (c : Dev nD) : Vec F S1x4096 .f32 := V m c main_v1

/-! ## Rows and columns of a grid point -/

theorem lt_N (t : Fin cfg0.N) : t.val < 1024 := lt_of_lt_of_eq t.isLt (show cfg0.N = 1024 from N_0)

/-- The row of X (and of the result) that row p of point t's block is. -/
def rowOf (t : Fin cfg0.N) (p : Fin 1024) : Fin 8192 :=
  ⟨1024 * (t.val / 128) + p.val, by have := lt_N t; have := p.isLt; omega⟩

/-- The row of W (the column of the result) that row r of point t's weight block is. -/
def colOf (t : Fin cfg0.N) (r : Fin 512) : Fin 4096 :=
  ⟨512 * (t.val / 16 % 8) + r.val, by have := r.isLt; omega⟩

/-- The block index of every window at every point, decided over the grid. -/
theorem index_facts : ∀ t : Fin cfg0.N,
    win0_0.index t 0 = t.val / 128 ∧ win0_0.index t 1 = t.val % 16
    ∧ win0_1.index t 0 = t.val / 16 % 8 ∧ win0_1.index t 1 = t.val % 16
    ∧ win0_2.index t 0 = 0 ∧ win0_2.index t 1 = t.val / 16 % 8
    ∧ win0_3.index t 0 = t.val / 128 ∧ win0_3.index t 1 = t.val / 16 % 8 :=
  (by decide +kernel : ∀ t : Fin grid0.N,
    win0_0.index t 0 = t.val / 128 ∧ win0_0.index t 1 = t.val % 16
    ∧ win0_1.index t 0 = t.val / 16 % 8 ∧ win0_1.index t 1 = t.val % 16
    ∧ win0_2.index t 0 = 0 ∧ win0_2.index t 1 = t.val / 16 % 8
    ∧ win0_3.index t 0 = t.val / 128 ∧ win0_3.index t 1 = t.val / 16 % 8)

/-! ## A block's entry is an array's entry -/

theorem xblk_apply (c : Dev nD) (t : Fin cfg0.N) (p : Fin 1024) (q : Fin 256) (h : 256 * (t.val % 16) + q.val < 4096) :
    xblk m c t (ix2 p q) = xarr m c (ix2 (rowOf t p) ⟨256 * (t.val % 16) + q.val, h⟩) := by
  show iblk m c 0 t (ix2 p q) = V m c main_v0 _
  unfold iblk
  rw [View.read_apply]
  show V m c main_v0 _ = V m c main_v0 _
  congr 1
  funext a
  apply Fin.ext
  have hi := index_facts t
  match a with
  | ⟨0, _⟩ => show win0_0.index t 0 * 1024 + 1 * p.val = 1024 * (t.val / 128) + p.val; rw [hi.1]; omega
  | ⟨1, _⟩ => show win0_0.index t 1 * 256 + 1 * q.val = 256 * (t.val % 16) + q.val; rw [hi.2.1]; omega

theorem wblk_apply (c : Dev nD) (t : Fin cfg0.N) (r : Fin 512) (q : Fin 256) (h : 256 * (t.val % 16) + q.val < 4096) :
    wblk m c t (ix2 r q) = warr m c (ix2 (colOf t r) ⟨256 * (t.val % 16) + q.val, h⟩) := by
  show iblk m c 1 t (ix2 r q) = V m c main_arg1 _
  unfold iblk
  rw [View.read_apply]
  show V m c main_arg1 _ = V m c main_arg1 _
  congr 1
  funext a
  apply Fin.ext
  have hi := index_facts t
  match a with
  | ⟨0, _⟩ => show win0_1.index t 0 * 512 + 1 * r.val = 512 * (t.val / 16 % 8) + r.val; rw [hi.2.2.1]; omega
  | ⟨1, _⟩ => show win0_1.index t 1 * 256 + 1 * q.val = 256 * (t.val % 16) + q.val; rw [hi.2.2.2.1]; omega

theorem bblk_apply (c : Dev nD) (t : Fin cfg0.N) (r : Fin 512) :
    bblk m c t (ix2 (0 : Fin 1) r) = barr m c (ix2 (0 : Fin 1) (colOf t r)) := by
  show iblk m c 2 t (ix2 (0 : Fin 1) r) = V m c main_v1 _
  unfold iblk
  rw [View.read_apply]
  show V m c main_v1 _ = V m c main_v1 _
  congr 1
  funext a
  apply Fin.ext
  have hi := index_facts t
  match a with
  | ⟨0, _⟩ => show win0_2.index t 0 * 1 + 1 * 0 = 0; rw [hi.2.2.2.2.1]
  | ⟨1, _⟩ => show win0_2.index t 1 * 512 + 1 * r.val = 512 * (t.val / 16 % 8) + r.val; rw [hi.2.2.2.2.2.1]; omega

end Cert.KernelIdeal.Blocks

/-! ## One block's sums, over the extended reals -/

namespace Cert.KernelIdeal.Blocks

open Cert.KernelIdeal Cert.KernelIdeal.Gen

variable (m : (ℓ : Loc nD τ sig) → Buf (Elt Ideal) ℓ)

/-- Point t's block product at (p, r) is block t % 16 of the sum of X[row, j] · W[col, j]. -/
theorem block_sum (c : Dev nD) (t : Fin cfg0.N) (p : Fin 1024) (r : Fin 512) :
    ∑ k : Fin 256, xblk m c t (ix2 p k) * wblk m c t (ix2 r k)
      = Spec.blockSum (Spec.term (xarr m c) (warr m c) (rowOf t p) (colOf t r)) (t.val % 16) := by
  refine Spec.sum_fin_eq_blockSum _ _ _ fun k => ?_
  have h : 256 * (t.val % 16) + k.val < 4096 := by have := k.isLt; omega
  rw [Spec.term_of_lt _ _ _ _ _ h, xblk_apply m c t p k h, wblk_apply m c t r k h]

/-- The same for the squared products. -/
theorem block_sumSq (c : Dev nD) (t : Fin cfg0.N) (p : Fin 1024) (r : Fin 512) :
    ∑ k : Fin 256, (xblk m c t (ix2 p k) * xblk m c t (ix2 p k)) * (wblk m c t (ix2 r k) * wblk m c t (ix2 r k))
      = Spec.blockSum (Spec.sqTerm (xarr m c) (warr m c) (rowOf t p) (colOf t r)) (t.val % 16) := by
  refine Spec.sum_fin_eq_blockSum _ _ _ fun k => ?_
  have h : 256 * (t.val % 16) + k.val < 4096 := by have := k.isLt; omega
  rw [Spec.sqTerm_of_lt _ _ _ _ _ h, xblk_apply m c t p k h, wblk_apply m c t r k h]

end Cert.KernelIdeal.Blocks

end
-- ==== Proof.Steps.lean ====
/-
  What the kernel's buffers hold after one grid point, from the point's blocks and what the point before left.

  At the first point of a run of sixteen (k = 0) everything is set afresh from the blocks.  At the later points
  the accumulator gains the point's block product and the two first-block products are carried unchanged; at the
  last point (k = 15) the output block is formed as well.
-/
import proofs.«104158_j30949534335490_1_alg».proof.Proof.Pieces
import proofs.«104158_j30949534335490_1_alg».proof.Proof.Blocks

noncomputable section

open Idealize.ShloMosaic Idealize.ShloMosaic.TcCoe Idealize.SL.Sem

namespace Cert.KernelIdeal.Steps

open Cert.KernelIdeal Cert.KernelIdeal.Gen Cert.KernelIdeal.Blocks

variable {F : FTy → Type} [FloatOps F]
variable (m : (ℓ : Loc nD τ sig) → Buf (Elt F) ℓ)

/-- What the point before `t` left: the output's buffer, then the accumulator and the two first-block products. -/
abbrev before (c : Dev nD) (t : Fin cfg0.N) : Vec F S1024x512 .f32 × Vec F S1024x512 .f32 × Vec F S1024x512 .f32 × Vec F S1024x512 .f32 :=
  outsAt0 m c (t.val - 1) (Nat.lt_of_le_of_lt (Nat.sub_le _ _) t.isLt)

/-- k = 0: the accumulator is the first block's product over a cleared start; the two first-block products are set. -/
theorem first (c : Dev nD) (t : Fin cfg0.N) (h0 : t.val % 16 = 0) :
    (outsAt0 m c t.val t.isLt).2.1 = k0_pay3 (xblk m c t) (wblk m c t) (k0_pay1 (F := F))
    ∧ (outsAt0 m c t.val t.isLt).2.2.1 = k0_pay4 (xblk m c t) (wblk m c t)
    ∧ (outsAt0 m c t.val t.isLt).2.2.2 = k0_pay5 (xblk m c t) (wblk m c t) := by
  have h2 : ¬t.val % 16 = 15 := by omega
  rw [outsAt0_A m c t h0 h0 h2]
  dsimp only
  exact ⟨Pieces.acc_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) (fun h => h2 ((hcond0_2 t).mp h)) (iblk m c 0 t) (iblk m c 1 t) (iblk m c 2 t),
    Pieces.y1_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) (fun h => h2 ((hcond0_2 t).mp h)) (iblk m c 0 t) (iblk m c 1 t) (iblk m c 2 t),
    Pieces.s2_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h0) (fun h => h2 ((hcond0_2 t).mp h)) (iblk m c 0 t) (iblk m c 1 t) (iblk m c 2 t)⟩

/-- 0 < k < 15: the accumulator gains the block product; the first-block products are carried. -/
theorem middle (c : Dev nD) (t : Fin cfg0.N) (h0 : ¬t.val % 16 = 0) (h2 : ¬t.val % 16 = 15) :
    (outsAt0 m c t.val t.isLt).2.1 = k0_pay3 (xblk m c t) (wblk m c t) (before m c t).2.1
    ∧ (outsAt0 m c t.val t.isLt).2.2.1 = (before m c t).2.2.1
    ∧ (outsAt0 m c t.val t.isLt).2.2.2 = (before m c t).2.2.2 := by
  rw [outsAt0_B m c t h0 h0 h2]
  dsimp only
  exact ⟨Pieces.acc_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h0 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    rfl, rfl⟩

/-- k = 15: as in the middle, and the output block is formed from the carried first-block products, the accumulator
    as just updated, and the bias row's block. -/
theorem last (c : Dev nD) (t : Fin cfg0.N) (h0 : ¬t.val % 16 = 0) (h2 : t.val % 16 = 15) :
    (outsAt0 m c t.val t.isLt).1
        = k0_pay6 (before m c t).2.2.2 (before m c t).2.2.1 (k0_pay3 (xblk m c t) (wblk m c t) (before m c t).2.1) (bblk m c t)
    ∧ (outsAt0 m c t.val t.isLt).2.1 = k0_pay3 (xblk m c t) (wblk m c t) (before m c t).2.1
    ∧ (outsAt0 m c t.val t.isLt).2.2.1 = (before m c t).2.2.1
    ∧ (outsAt0 m c t.val t.isLt).2.2.2 = (before m c t).2.2.2 := by
  rw [outsAt0_C m c t h0 h0 h2]
  dsimp only
  exact ⟨Pieces.out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.acc_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h0 ((hcond0_1 t).mp h)) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    rfl, rfl⟩

end Cert.KernelIdeal.Steps

end
-- ==== Proof.Payloads.lean ====
/-
  The body's arithmetic read at one entry, over the extended reals.

  A block product at (p, r) is the sum over the 256 columns k of the block of x[p, k] · w[r, k]: the weight block
  enters transposed, and a change of float format is the identity here.  The accumulator's update adds that sum to
  the entry it held; the output entry applies the test and adds the bias row's entry of the same column.
-/
import proofs.«104158_j30949534335490_1_alg».proof.Proof.Gen.KernelIdeal.Skeleton
import proofs.«104158_j30949534335490_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Pay

open Cert.KernelIdeal Cert.KernelIdeal.Gen

/-! ## The block product at an entry -/

theorem lhs_axis0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_axis1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_axis0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_axis1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A 1024×256 by 256×512 product into a zero start, at (p, r): the sum over the 256 shared columns. -/
theorem matmul_entry {φ₁ φ₂ : FTy} (prec : Option ContractPrecision) (l : FVec Ideal S1024x256 φ₁) (rt : FVec Ideal S256x512 φ₂)
    (p : Fin 1024) (r : Fin 512) :
    matmul dot_S1024x256_S256x512_S1024x512_1_0_0_1_n_n prec l rt (constant S1024x512 .f32 0x00000000#32) (ix2 p r)
      = ∑ k : Fin 256, l (ix2 p k) * rt (ix2 k r) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p r) ((ValueIdx.contrEquiv1 dot_S1024x256_S256x512_S1024x512_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1024x256_S256x512_S1024x512_1_0_0_1_n_n.rhsIdx (ix2 p r) ((ValueIdx.contrEquiv1 dot_S1024x256_S256x512_S1024x512_1_0_0_1_n_n 256 rfl rfl).symm k) = ix2 k r := funext fun a => Fin.ext (by
    match a with
    | ⟨0, _⟩ => exact (rhs_axis0 _ _).trans hk
    | ⟨1, _⟩ => exact rhs_axis1 _ _)
  rw [el, er]

/-! ## The payloads at an entry -/

/-- The cleared accumulator holds zero everywhere. -/
theorem cleared_apply (y : S1024x512.Idx) : k0_pay1 (F := Ideal) y = 0 := by
  unfold k0_pay1
  simp only [shapeCast_self]
  exact Ideal.ofBits_zero_f32

/-- The accumulator's update at (p, r): the entry it held plus the block's sum of x[p, k] · w[r, k]. -/
theorem accUpdate_apply (x : Vec Ideal S1024x256 .f32) (w : Vec Ideal S512x256 .f32) (a : Vec Ideal S1024x512 .f32)
    (p : Fin 1024) (r : Fin 512) :
    k0_pay3 (F := Ideal) x w a (ix2 p r) = a (ix2 p r) + ∑ k : Fin 256, x (ix2 p k) * w (ix2 r k) := by
  unfold k0_pay3 k0_pay2
  simp only [shapeCast_self]
  rw [ValueIdx.addf_apply, matmul_entry]
  refine congrArg (a (ix2 p r) + ·) (Finset.sum_congr rfl fun k _ => ?_)
  rw [transpose_ix2_apply]
  rfl

/-- The first block's product at (p, r). -/
theorem y1_apply (x : Vec Ideal S1024x256 .f32) (w : Vec Ideal S512x256 .f32) (p : Fin 1024) (r : Fin 512) :
    k0_pay4 (F := Ideal) x w (ix2 p r) = ∑ k : Fin 256, x (ix2 p k) * w (ix2 r k) := by
  unfold k0_pay4 k0_pay2
  simp only [shapeCast_self]
  rw [matmul_entry]
  refine Finset.sum_congr rfl fun k _ => ?_
  rw [transpose_ix2_apply]

/-- The first block's product of squares at (p, r). -/
theorem s2_apply (x : Vec Ideal S1024x256 .f32) (w : Vec Ideal S512x256 .f32) (p : Fin 1024) (r : Fin 512) :
    k0_pay5 (F := Ideal) x w (ix2 p r) = ∑ k : Fin 256, (x (ix2 p k) * x (ix2 p k)) * (w (ix2 r k) * w (ix2 r k)) := by
  unfold k0_pay5 k0_pay2
  simp only [shapeCast_self]
  rw [matmul_entry]
  refine Finset.sum_congr rfl fun k _ => ?_
  rw [transpose_ix2_apply]
  rfl

/-- The output entry at (p, r): the test on the two first-block sums decides between zero and the accumulator's
    entry; the bias row's entry of column r is added. -/
theorem out_apply (s2 y1 acc : Vec Ideal S1024x512 .f32) (bias : Vec Ideal S1x512 .f32) (p : Fin 1024) (r : Fin 512) :
    k0_pay6 (F := Ideal) s2 y1 acc bias (ix2 p r)
      = Spec.outElt (s2 (ix2 p r)) (y1 (ix2 p r)) (acc (ix2 p r)) (bias (ix2 (0 : Fin 1) r)) := by
  unfold k0_pay6 Spec.outElt
  simp only [shapeCast_self]
  rw [ValueIdx.addf_apply]
  congr 1
  exact broadcastTo_apply (s := S1x512) (t := S1024x512) bias broadcasts_S1x512_S1024x512 (ix2 p r) (ix2 (0 : Fin 1) r)
    (fun a => match a with
      | ⟨0, _⟩ => by show 0 = if (1 : Nat) = 1 then 0 else _; rw [if_pos rfl]
      | ⟨1, _⟩ => by show r.val = if (512 : Nat) = 1 then 0 else r.val; rw [if_neg (by decide)])

end Cert.KernelIdeal.Pay

end
-- ==== Proof.Invariant.lean ====
/-
  The running sums: what the three carried buffers hold after every grid point, over the extended reals.

  Fix a point t with k = t % 16, and an entry (p, r) of its blocks; write g(j) = X[row, j] · W[col, j] for the row and
  column of the result that (p, r) stands for.  After point t the accumulator holds the first k + 1 blocks of g added
  in turn, and the other two buffers hold block 0's sum of g and of the squared products.
  By induction on the point: at k = 0 all three are set from the point's own blocks, the accumulator from a cleared
  start; at k > 0 the point before has the same row and column and k - 1, the accumulator gains block k and the other
  two are carried unchanged.
-/
import proofs.«104158_j30949534335490_1_alg».proof.Proof.Steps
import proofs.«104158_j30949534335490_1_alg».proof.Proof.Payloads

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Blocks

variable (m : (ℓ : Loc nD τ sig) → Buf (Elt Ideal) ℓ)

/-- The point before a point with k > 0 stands for the same rows of the result, -/
theorem rowOf_pred (t : Fin cfg0.N) (h0 : ¬t.val % 16 = 0) (h' : t.val - 1 < cfg0.N) (p : Fin 1024) :
    rowOf (⟨t.val - 1, h'⟩ : Fin cfg0.N) p = rowOf t p :=
  Fin.ext (by show 1024 * ((t.val - 1) / 128) + p.val = 1024 * (t.val / 128) + p.val; omega)

/-- and for the same columns. -/
theorem colOf_pred (t : Fin cfg0.N) (h0 : ¬t.val % 16 = 0) (h' : t.val - 1 < cfg0.N) (r : Fin 512) :
    colOf (⟨t.val - 1, h'⟩ : Fin cfg0.N) r = colOf t r :=
  Fin.ext (by show 512 * ((t.val - 1) / 16 % 8) + r.val = 512 * (t.val / 16 % 8) + r.val; omega)

/-- The three running sums after point `n`. -/
def Holds (c : Dev nD) (n : ℕ) (h : n < cfg0.N) : Prop :=
  (∀ (p : Fin 1024) (r : Fin 512), (outsAt0 m c n h).2.1 (ix2 p r)
      = Spec.partialAcc (Spec.term (xarr m c) (warr m c) (rowOf ⟨n, h⟩ p) (colOf ⟨n, h⟩ r)) (n % 16 + 1))
  ∧ (∀ (p : Fin 1024) (r : Fin 512), (outsAt0 m c n h).2.2.1 (ix2 p r)
      = Spec.blockSum (Spec.term (xarr m c) (warr m c) (rowOf ⟨n, h⟩ p) (colOf ⟨n, h⟩ r)) 0)
  ∧ (∀ (p : Fin 1024) (r : Fin 512), (outsAt0 m c n h).2.2.2 (ix2 p r)
      = Spec.blockSum (Spec.sqTerm (xarr m c) (warr m c) (rowOf ⟨n, h⟩ p) (colOf ⟨n, h⟩ r)) 0)

/-- At k = 0 the sums start: one block over a cleared accumulator, and the two first-block sums. -/
theorem holds_first (c : Dev nD) (t : Fin cfg0.N) (h0 : t.val % 16 = 0) : Holds m c t.val t.isLt := by
  obtain ⟨e0, e1, e2⟩ := Steps.first m c t h0
  refine ⟨fun p r => ?_, fun p r => ?_, fun p r => ?_⟩
  · rw [e0, Pay.accUpdate_apply, Pay.cleared_apply, block_sum m c t p r, h0]
    exact (Spec.partialAcc_one _).symm
  · rw [e1, Pay.y1_apply, block_sum m c t p r, h0]
  · rw [e2, Pay.s2_apply, block_sumSq m c t p r, h0]

/-- At k > 0 the accumulator gains block k over what the point before left, and the first-block sums are carried. -/
theorem holds_next (c : Dev nD) (t : Fin cfg0.N) (h0 : ¬t.val % 16 = 0)
    (ih : Holds m c (t.val - 1) (Nat.lt_of_le_of_lt (Nat.sub_le _ _) t.isLt)) : Holds m c t.val t.isLt := by
  obtain ⟨i0, i1, i2⟩ := ih
  have hk : (t.val - 1) % 16 + 1 = t.val % 16 := by omega
  have e : (outsAt0 m c t.val t.isLt).2.1 = k0_pay3 (xblk m c t) (wblk m c t) (Steps.before m c t).2.1
      ∧ (outsAt0 m c t.val t.isLt).2.2.1 = (Steps.before m c t).2.2.1
      ∧ (outsAt0 m c t.val t.isLt).2.2.2 = (Steps.before m c t).2.2.2 := by
    by_cases h2 : t.val % 16 = 15
    · exact (Steps.last m c t h0 h2).2
    · exact Steps.middle m c t h0 h2
  obtain ⟨e0, e1, e2⟩ := e
  refine ⟨fun p r => ?_, fun p r => ?_, fun p r => ?_⟩
  · rw [e0, Pay.accUpdate_apply, block_sum m c t p r, Spec.partialAcc_succ]
    refine congrArg (· + _) ?_
    rw [i0 p r, rowOf_pred t h0, colOf_pred t h0, hk]
  · rw [e1, i1 p r, rowOf_pred t h0, colOf_pred t h0]
  · rw [e2, i2 p r, rowOf_pred t h0, colOf_pred t h0]

/-- The running sums hold after every point. -/
theorem holds (c : Dev nD) : ∀ (n : ℕ) (h : n < cfg0.N), Holds m c n h := by
  intro n
  induction n with
  | zero => intro h; exact holds_first m c ⟨0, h⟩ rfl
  | succ n ih =>
    intro h
    by_cases h0 : (n + 1) % 16 = 0
    · exact holds_first m c ⟨n + 1, h⟩ h0
    · exact holds_next m c ⟨n + 1, h⟩ h0 (ih (Nat.lt_of_succ_lt h))

end Cert.KernelIdeal.Inv

end
-- ==== Proof.KernelValue.lean ====
/-
  The kernel's result array, and its run read as a value.

  The output window is written back at the last point of each run of sixteen (k = 15).  There the output block's
  entry (p, r) is the specification's entry at the row and column that (p, r) stands for: the two first-block sums and
  the sixteen-block accumulation are the running sums after that point, and the bias row's block is the bias at
  that column.  The sixty-four write-backs tile the 8192 × 4096 array, so it ends holding the specification's matrix
  of the activations as an 8192 × 4096 matrix, the weights and the bias; the program then reshapes it to 4 × 2048 × 4096.
-/
import proofs.«104158_j30949534335490_1_alg».proof.Proof.Invariant
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks

variable (m : (ℓ : Loc nD τ sig) → Buf (Elt Ideal) ℓ) (ρ : Dev nD → PrngReg)

/-- The bias as the region finds it (a 1 × 4096 row), read as a vector of 4096 entries. -/
abbrev brow (c : Dev nD) : Spec.SB.Idx → EReal := fun j => barr m c (ix2 (0 : Fin 1) (j 0))

/-- What the result array of the region ends holding: the specification's matrix. -/
abbrev G (c : Dev nD) : Buf (Elt Ideal) ((c : Thread nD τ).loc main_v2) := Spec.out2d (xarr m c) (warr m c) (brow m c)

/-- At k = 15 the output block's entry (p, r) is the specification's entry at its row and column. -/
theorem out_block (c : Dev nD) (t : Fin cfg0.N) (h15 : t.val % 16 = 15) (p : Fin 1024) (r : Fin 512) :
    (outsAt0 m c t.val t.isLt).1 (ix2 p r) = Spec.out2d (xarr m c) (warr m c) (brow m c) (ix2 (rowOf t p) (colOf t r)) := by
  have h0 : ¬t.val % 16 = 0 := by omega
  obtain ⟨e, e0, e1, e2⟩ := Steps.last m c t h0 h15
  obtain ⟨i0, i1, i2⟩ := Inv.holds m c t.val t.isLt
  rw [e, Pay.out_apply, ← e2, ← e1, ← e0, i0 p r, i1 p r, i2 p r, bblk_apply, h15]
  rfl

/-- What the write-back at a point with k = 15 writes is that point's block of the specification's matrix. -/
theorem flushed_eq (c : Dev nD) (t : Fin cfg0.N) (hf : (cfg0.win 3).flush t = true) :
    (dats m 0 c).flushed 3 t = ((cfg0.win 3).blk t).view.read (Elt Ideal) (G m c) := by
  have h15 : t.val % 16 = 15 := (flush0_3 t).mp hf
  show (cfg0.win 3).cut (grid0.coords t) ((dats m 0 c).after 3 t) = _
  rw [after0_3]
  funext j
  obtain ⟨p, r, rfl⟩ : ∃ (p : Fin 1024) (r : Fin 512), j = ix2 p r := ⟨j 0, j 1, eq_ix2 j⟩
  rw [View.read_apply]
  show (outsAt0 m c t.val t.isLt).1 (ix2 p r) = Spec.out2d (xarr m c) (warr m c) (brow m c) _
  rw [out_block m c t h15 p r]
  congr 1
  funext a
  apply Fin.ext
  have hi := index_facts t
  match a with
  | ⟨0, _⟩ => show 1024 * (t.val / 128) + p.val = win0_3.index t 0 * 1024 + 1 * p.val; rw [hi.2.2.2.2.2.2.1]; omega
  | ⟨1, _⟩ => show 512 * (t.val / 16 % 8) + r.val = win0_3.index t 1 * 512 + 1 * r.val; rw [hi.2.2.2.2.2.2.2]; omega

/-- An entry of the array is in point t's block iff each coordinate is in the block's range. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Every entry (b, n) of the array is written back by the point of block row b / 1024, block column n / 512 and k = 15. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 1024 := N_0
  let t : Fin cfg0.N := ⟨128 * ((i 0).val / 1024) + 16 * ((i 1).val / 512) + 15, by rw [hN]; omega⟩
  have ht : t.val = 128 * ((i 0).val / 1024) + 16 * ((i 1).val / 512) + 15 := rfl
  refine ⟨t, (flush0_3 t).mpr (by rw [ht]; omega), ?_⟩
  rw [mem_blk]
  have hi := index_facts t
  intro a
  match a with
  | ⟨0, _⟩ => show win0_3.index t 0 * 1024 ≤ (i 0).val ∧ (i 0).val < win0_3.index t 0 * 1024 + 1024; rw [hi.2.2.2.2.2.2.1, ht]; omega
  | ⟨1, _⟩ => show win0_3.index t 1 * 512 ≤ (i 1).val ∧ (i 1).val < win0_3.index t 1 * 512 + 512; rw [hi.2.2.2.2.2.2.2, ht]; omega

/-- The region's result array ends holding the specification's matrix. -/
theorem final (c : Dev nD) : (dats m 0 c).arrAt 3 cfg0.N = G m c :=
  (dats m 0 c).arrAt_eq_of_cover 3 (G m c) (flushed_eq m c) cover

/-! ## The arrays at the region's entry, and the reshape after it -/

/-- The region finds the activations reshaped to 8192 × 4096, -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- the weights as launched, -/
theorem warr_eq (c : Dev nD) : warr m c = m ((c : Thread nD τ).loc main_arg1) := V_main_arg1 m c

/-- and the bias reshaped to one row; -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

/-- read as a vector, that row is the bias. -/
theorem brow_eq (c : Dev nD) : brow m c = m ((c : Thread nD τ).loc main_arg2) := by
  funext j
  show barr m c (ix2 (0 : Fin 1) (j 0)) = _
  rw [barr_eq]
  exact shapeCast_apply _ shapeCasts_S4096_S1x4096 (ix2 (0 : Fin 1) (j 0)) j
    (by rw [Shape.rowMajor_val_one, Shape.rowMajor_val_two]; show (j 0).val = 0 * 4096 + (j 0).val; omega)

/-- The program's result as a function of the three arguments: the specification's matrix of the reshaped
    activations, the weights and the bias, reshaped to 4 × 2048 × 4096. -/
abbrev result (x0 : S4x2048x4096.Idx → EReal) (x1 : S4096x4096.Idx → EReal) (x2 : S4096.Idx → EReal) : S4x2048x4096.Idx → EReal :=
  shapeCast S4x2048x4096 (Spec.out2d (shapeCast S8192x4096 x0 shapeCasts_S4x2048x4096_S8192x4096) x1 x2) shapeCasts_S8192x4096_S4x2048x4096

/-- The reshape after the region turns the region's result array into the program's result. -/
theorem tail (c : Dev nD) :
    Pipeline.afterTail₀ cfgs (dats m) 0 (V0 m) [hostOps1] c main_v3
      = result (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  refine congrArg (shapeCast S4x2048x4096 · shapeCasts_S8192x4096_S4x2048x4096) ?_
  refine ((Pipeline.withArrays_arr spec0 launch0.win.arr_inj c _ _ 3).trans (final m c)).trans ?_
  show Spec.out2d (xarr m c) (warr m c) (brow m c) = _
  rw [xarr_eq, warr_eq, brow_eq]

/-- The kernel program's run, read: it terminates with the result at the specification's function of the arguments,
    the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference program read entry by entry: before its final reshape it holds the specification's matrix.

  Its two sums over the first 256 columns are block 0's sums of the products and of the squared products;
  its sum over the remaining 3840 columns starts at column 256.  It adds the first-block sum to that tail, where
  the specification adds sixteen blocks in turn: the two are one sum, regrouped.
-/
import proofs.«104158_j30949534335490_1_alg».proof.Proof.Gen.ReferenceIdeal.Read
import proofs.«104158_j30949534335490_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

variable (x0 : (⟨S4x2048x4096, .f32⟩ : BufTy).Contents (Elt Ideal)) (x1 : (⟨S4096x4096, .f32⟩ : BufTy).Contents (Elt Ideal))
  (x2 : (⟨S4096, .f32⟩ : BufTy).Contents (Elt Ideal))

/-- The activations as the 8192 × 4096 matrix the reference reshapes them to. -/
abbrev X : Spec.SX.Idx → EReal := val_main_v0 (F := Ideal) x0

/-- The slice of the first 256 columns of X, at row b and column k, is X[b, k]. -/
theorem lhs_first (b : Fin 8192) (n : Fin 4096) (k : Fin 256) (h : 256 * 0 + k.val < 4096) :
    idx_main_v2 (lidx_main_v3 (ix2 b n) k) = ix2 b ⟨256 * 0 + k.val, h⟩ :=
  funext fun a => Fin.ext (by
    match a with
    | ⟨0, _⟩ => rfl
    | ⟨1, _⟩ => show k.val = 256 * 0 + k.val; omega)

/-- The slice of the first 256 columns of W, at row n and column k, is W[n, k]. -/
theorem rhs_first (b : Fin 8192) (n : Fin 4096) (k : Fin 256) (h : 256 * 0 + k.val < 4096) :
    idx_main_v1 (ridx_main_v3 (ix2 b n) k) = ix2 n ⟨256 * 0 + k.val, h⟩ :=
  funext fun a => Fin.ext (by
    match a with
    | ⟨0, _⟩ => rfl
    | ⟨1, _⟩ => show k.val = 256 * 0 + k.val; omega)

/-- The reference's first product, at (b, n): block 0's sum of X[b, j] · W[n, j]. -/
theorem firstSum_eq (b : Fin 8192) (n : Fin 4096) :
    val_main_v3 (F := Ideal) x0 x1 (ix2 b n) = Spec.blockSum (Spec.term (X x0) x1 b n) 0 := by
  rw [val_main_v3_apply]
  refine Spec.sum_fin_eq_blockSum _ 0 _ fun k => ?_
  have h : 256 * 0 + k.val < 4096 := by have := k.isLt; omega
  rw [val_main_v2_apply, val_main_v1_apply, Spec.term_of_lt _ _ _ _ _ h, lhs_first b n k h, rhs_first b n k h]

/-- The reference's product of squares, at (b, n): block 0's sum of the squared products. -/
theorem firstSquares_eq (b : Fin 8192) (n : Fin 4096) :
    val_main_v6 (F := Ideal) x0 x1 (ix2 b n) = Spec.blockSum (Spec.sqTerm (X x0) x1 b n) 0 := by
  rw [val_main_v6_apply]
  refine Spec.sum_fin_eq_blockSum _ 0 _ fun k => ?_
  have h : 256 * 0 + k.val < 4096 := by have := k.isLt; omega
  rw [val_main_v4_apply, val_main_v5_apply, val_main_v2_apply, val_main_v1_apply, Spec.sqTerm_of_lt _ _ _ _ _ h]
  rw [show idx_main_v2 (lidx_main_v6 (ix2 b n) k) = ix2 b ⟨256 * 0 + k.val, h⟩ from lhs_first b n k h,
    show idx_main_v1 (ridx_main_v6 (ix2 b n) k) = ix2 n ⟨256 * 0 + k.val, h⟩ from rhs_first b n k h]
  rfl

/-- The reference's product over the remaining columns, at (b, n): the sum of X[b, j] · W[n, j] for 256 ≤ j < 4096. -/
theorem tailSum_eq (b : Fin 8192) (n : Fin 4096) :
    val_main_v20 (F := Ideal) x0 x1 (ix2 b n) = ∑ k ∈ Finset.range 3840, Spec.term (X x0) x1 b n (256 + k) := by
  rw [val_main_v20_apply]
  refine Spec.sum_fin_eq_tail _ _ fun k => ?_
  have h : 256 + k.val < 4096 := by have := k.isLt; omega
  rw [val_main_v18_apply, val_main_v19_apply, Spec.term_of_lt _ _ _ _ _ h]
  rw [show idx_main_v18 (lidx_main_v20 (ix2 b n) k) = ix2 b ⟨256 + k.val, h⟩ from
      funext fun a => Fin.ext (by match a with | ⟨0, _⟩ => rfl | ⟨1, _⟩ => rfl),
    show idx_main_v19 (ridx_main_v20 (ix2 b n) k) = ix2 n ⟨256 + k.val, h⟩ from
      funext fun a => Fin.ext (by match a with | ⟨0, _⟩ => rfl | ⟨1, _⟩ => rfl)]

/-- The bias broadcast along the rows reads, at (b, n), the bias entry n. -/
theorem bias_idx (b : Fin 8192) (n : Fin 4096) : idx_main_v23 (idx_main_v24 (ix2 b n)) = ix1 n :=
  funext fun a => Fin.ext (by match a with | ⟨0, _⟩ => rfl)

/-- Before its final reshape the reference holds the specification's matrix of X, the weights and the bias. -/
theorem matrix_eq : val_main_v25 (F := Ideal) x0 x1 x2 = Spec.out2d (X x0) x1 x2 := by
  funext i
  obtain ⟨b, n, rfl⟩ : ∃ (b : Fin 8192) (n : Fin 4096), i = ix2 b n := ⟨i 0, i 1, eq_ix2 i⟩
  rw [val_main_v25_apply, val_main_v22_apply, val_main_v24_apply, val_main_v23_apply, val_main_v17_apply, val_main_v21_apply,
    val_main_call0_v1_apply, val_main_call0_v0_apply, val_main_cst_3_apply, val_main_v15_apply, val_main_v16_apply,
    val_main_cst_2_apply, val_main_v12_apply, val_main_v14_apply, val_main_v11_apply, val_main_v13_apply, val_main_cst_1_apply,
    val_main_v10_apply, val_main_v8_apply, val_main_v9_apply, val_main_cst_0_apply, val_main_v7_apply, val_main_cst_apply]
  rw [firstSum_eq, firstSquares_eq, tailSum_eq, bias_idx]
  show _ = Spec.outElt (Spec.blockSum (Spec.sqTerm (X x0) x1 b n) 0) (Spec.blockSum (Spec.term (X x0) x1 b n) 0)
    (Spec.partialAcc (Spec.term (X x0) x1 b n) 16) (x2 (ix1 n))
  rw [Spec.partialAcc_sixteen]
  rfl

end Cert.ReferenceIdeal.RefValue

end
-- ==== Proof.lean ====
/-
  Equivalence over the extended reals of a blocked matrix product with an early-exit test against its plain form.

  Both programs take activations x (4 × 2048 × 4096, read as an 8192 × 4096 matrix X), weights W (4096 × 4096) and a
  bias β (4096), and return, at row b and column n,

      (if |y₁| / max(√(s₂ / 256 + ε), ε) < 3 then 0 else a) + β[n],

  with y₁ = Σ_{j<256} X[b,j]·W[n,j], s₂ = Σ_{j<256} (X[b,j]·X[b,j])·(W[n,j]·W[n,j]) and a = Σ_{j<4096} X[b,j]·W[n,j],
  reshaped back to 4 × 2048 × 4096.

  The kernel walks a grid of 8 × 8 blocks of the result, and for each block sixteen blocks of 256 columns of the
  contraction.  It keeps three buffers across those sixteen points: the accumulator, cleared at the first and then
  gaining one block's product per point (its operands pass through a narrower float format, which over the extended
  reals is the identity), and y₁ and s₂, set at the first point.  At the sixteenth point it forms the output block.
  By induction over the grid points the accumulator holds the first k + 1 blocks' sums added in turn; the sixty-four
  output blocks tile the result.  The reference computes y₁ and the sum over the remaining 3840 columns and adds them.
  Sixteen blocks added in turn to zero, and the first block plus the rest, are the same sum regrouped: addition on the
  extended reals is commutative and associative with no side condition, so the inputs' finiteness is never used.
  The kernel's idealization rewrote no operation, so that conjunct is trivial.
-/
import proofs.«104158_j30949534335490_1_alg».proof.Defs
import proofs.«104158_j30949534335490_1_alg».proof.Proof.Gen.Kernel
import proofs.«104158_j30949534335490_1_alg».proof.Proof.Gen.Kernel.Skeleton
import proofs.«104158_j30949534335490_1_alg».proof.Proof.Gen.Kernel.Launch
import proofs.«104158_j30949534335490_1_alg».proof.Proof.Gen.Kernel.Points
import proofs.«104158_j30949534335490_1_alg».proof.Proof.Gen.Kernel.Frame
import proofs.«104158_j30949534335490_1_alg».proof.Proof.Gen.KernelIdeal
import proofs.«104158_j30949534335490_1_alg».proof.Proof.Gen.KernelIdeal.Skeleton
import proofs.«104158_j30949534335490_1_alg».proof.Proof.Gen.KernelIdeal.Launch
import proofs.«104158_j30949534335490_1_alg».proof.Proof.Gen.KernelIdeal.Points
import proofs.«104158_j30949534335490_1_alg».proof.Proof.Gen.KernelIdeal.Frame
import proofs.«104158_j30949534335490_1_alg».proof.Proof.Gen.ReferenceIdeal
import proofs.«104158_j30949534335490_1_alg».proof.Proof.Gen.ReferenceIdeal.Run
import proofs.«104158_j30949534335490_1_alg».proof.Proof.Gen.ReferenceIdeal.Read
import proofs.«104158_j30949534335490_1_alg».proof.Proof.Gen.Pre_finite_inputs
import proofs.«104158_j30949534335490_1_alg».proof.Proof.KernelValue
import proofs.«104158_j30949534335490_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, both programs end with the specification's function of them:
    the kernel by its run read as a value, the reference by its run read entry by entry. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v26_eq]
  unfold Cert.ReferenceIdeal.Read.val_main_v26
  rw [Cert.ReferenceIdeal.RefValue.matrix_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
